-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S32x1024x1024 : Shape := ⟨3, ![32, 1024, 1024]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S32x1024x3 .f32) (main_arg1 : FVec F S32x1024x1024 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1024x3 : Shape := ⟨3, ![32, 1024, 3]⟩
abbrev S32x1024x1024 : Shape := ⟨3, ![32, 1024, 1024]⟩
abbrev S32x1x2 : Shape := ⟨3, ![32, 1, 2]⟩
abbrev S1x1024x3 : Shape := ⟨3, ![1, 1024, 3]⟩
abbrev S1x1024x1024 : Shape := ⟨3, ![1, 1024, 1024]⟩
abbrev S1x1x2 : Shape := ⟨3, ![1, 1, 2]⟩
abbrev S1024x3 : Shape := ⟨2, ![1024, 3]⟩
abbrev S3x1024 : Shape := ⟨2, ![3, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S1x2 : Shape := ⟨2, ![1, 2]⟩
abbrev S32x1x1 : Shape := ⟨3, ![32, 1, 1]⟩
abbrev S32 : Shape := ⟨1, ![32]⟩
abbrev S_ : Shape := ⟨0, ![]⟩

abbrev nBuf : Space → Nat
  | .hbm => 16
  | .vmem => 6
  | .smem => 0
  | _ => 0

abbrev bufTy : (tb : Table) → Fin (tcTables nBuf tb) → BufTy
  | .hbm, ⟨0, _⟩ => ⟨S32x1024x3, .f32⟩
  | .hbm, ⟨1, _⟩ => ⟨S32x1024x1024, .f32⟩
  | .hbm, ⟨2, _⟩ => ⟨S32x1x2, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S32x1x1, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x2, .f32⟩
  | .local _ .vmem, ⟨5, _⟩ => ⟨S1x1x2, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  bitsLt_bf16_f32 : FTy.bits .bf16 < FTy.bits .f32
  transposes_S1024x3_p1_0_S3x1024 : S1024x3.Transposes [1, 0] S3x1024
  reduces_S1024x3_S1024 : S1024x3.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  reduces_S1024x1_S1 : S1024x1.Reduces [0] S1
  shapeCasts_S1_S1x1 : S1.ShapeCasts S1x1
  concatenates_S1x1_S1x1_S1x2_d1 : Shape.Concatenates [S1x1, S1x1] S1x2 1
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  slices_S32x1x2_S32x1x1_0_0_0 : S32x1x2.Slices ![0, 0, 0] S32x1x1
  shapeCasts_S32x1x1_S32 : S32x1x1.ShapeCasts S32
  reducesTo_S32_S_d0 : S32.ReducesTo [0] S_
  h_S_ : 0 < S_.numel
  slices_S32x1x2_S32x1x1_0_0_1 : S32x1x2.Slices ![0, 0, 1] S32x1x1
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S32x1024x3.size a
  hwx0_0 : ∀ i : grid0.Coords, EltTy.bits .f32 = 32 ∨ (Rect.block (s := S32x1024x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2.size a ≤ S32x1x2.size a
  hwx0_2 : ∀ i : grid0.Coords, EltTy.bits .f32 = 32 ∨ (Rect.block (s := S32x1x2) S1x1x2.size (cc0_transform_2 i) (hinb0_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩
abbrev S32x1x1024 : Shape := ⟨3, ![32, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32x1024x3, .f32⟩
  | .hbm, ⟨1, _⟩ => ⟨S32x1024x1024, .f32⟩
  | .hbm, ⟨2, _⟩ => ⟨S32x1024x3, .f32⟩
  | .hbm, ⟨3, _⟩ => ⟨S_, .f32⟩
  | .hbm, ⟨4, _⟩ => ⟨S32x1024, .f32⟩
  | .hbm, ⟨5, _⟩ => ⟨S32x1024x1024, .f32⟩
  | .hbm, ⟨6, _⟩ => ⟨S32x1024x1, .f32⟩
  | .hbm, ⟨7, _⟩ => ⟨S32x1x1024, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S_, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S_, .f32⟩
  | .hbm, ⟨16, _⟩ => ⟨S32x1024x1024, .f32⟩
  | .hbm, ⟨17, _⟩ => ⟨S32x1024x1024, .f32⟩
  | .hbm, ⟨18, _⟩ => ⟨S_, .f32⟩
  | .hbm, ⟨19, _⟩ => ⟨S32x1024x1024, .f32⟩
  | .hbm, ⟨20, _⟩ => ⟨S32x1024x1024, .i1⟩
  | .hbm, ⟨21, _⟩ => ⟨S32x1024x1024, .f32⟩
  | .hbm, ⟨22, _⟩ => ⟨S32x1024x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S32x1024x3_S32x1024_d2 : S32x1024x3.ReducesTo [2] S32x1024
  h_S_ : 0 < S_.numel
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  reducesTo_S32x1024x1024_S_d0_1_2 : S32x1024x1024.ReducesTo [0, 1, 2] S_
  dot_S32x1024x3_S32x1024x3_S32x1024x1024_2_2_1_1_0_0_wf : DotDims.WF S32x1024x3 S32x1024x3 S32x1024x1024 [2] [2] [1] [1] [0] [0]

variable [Facts₀]

def dot_S32x1024x3_S32x1024x3_S32x1024x1024_2_2_1_1_0_0 : DotDims S32x1024x3 S32x1024x3 S32x1024x1024 where
  lhsContracting := [2]
  rhsContracting := [2]
  lhsNonContracting := [1]
  rhsNonContracting := [1]
  lhsBatch := [0]
  rhsBatch := [0]
  wf := dot_S32x1024x3_S32x1024x3_S32x1024x1024_2_2_1_1_0_0_wf

class Facts : Prop extends Facts₀ where

variable [Facts]
-- ==== Proof.BlockSteps.lean ====
/-
  The layout and reduction steps of one batch's body, each read at an index written by its coordinates.

  The body works on a [1024, 3] table of points `x` and a [1024, 1024] table of similarities, both arriving with a
  leading unit axis. Its steps that are not elementwise: dropping or adding a unit axis (a reshape between shapes
  with the same row-major order), transposing, spreading a column [1024, 1] or a row [1, 1024] over the square,
  summing a table's rows (over its second axis) or a column's entries (over its first axis), the product of the
  points' table with its own transpose, and setting two 1 × 1 tables side by side. Each lemma says where the
  step's result at an index reads its operand, so that the body's two results unfold to plain iterated sums.
-/
import proofs.«402486_j12506944766655_3_alg».proof.KernelIdeal
import proofs.«402486_j12506944766655_3_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.BlockSteps

open Idealize.ShloMosaic Idealize.ShloMosaic.ValueIdx Cert.KernelIdeal Cert.KernelIdeal.Gen

variable {α : Type}

/-! ## Reshapes that drop or add a unit axis -/

/-- A [1, 1024, 3] block viewed as [1024, 3]: entry (i, c) is the block's (0, i, c). -/
theorem dropUnit_pts (v : S1x1024x3.Idx → α) (h : S1x1024x3.ShapeCasts S1024x3) (i : Fin 1024) (c : Fin 3) :
    shapeCast S1024x3 v h (ix2 i c) = v (ix3 0 i c) := by
  refine shapeCast_apply v h (ix2 i c) (ix3 0 i c) ?_
  rw [Shape.rowMajor_val_three, Shape.rowMajor_val_two]
  show ((0 : ℕ) * 1024 + i.val) * 3 + c.val = i.val * 3 + c.val
  omega

/-- A [1, 1024, 1024] block viewed as [1024, 1024]: entry (i, j) is the block's (0, i, j). -/
theorem dropUnit_sim (v : S1x1024x1024.Idx → α) (h : S1x1024x1024.ShapeCasts S1024x1024) (i j : Fin 1024) :
    shapeCast S1024x1024 v h (ix2 i j) = v (ix3 0 i j) := by
  refine shapeCast_apply v h (ix2 i j) (ix3 0 i j) ?_
  rw [Shape.rowMajor_val_three, Shape.rowMajor_val_two]
  show ((0 : ℕ) * 1024 + i.val) * 1024 + j.val = i.val * 1024 + j.val
  omega

/-- A vector [1024] viewed as a column [1024, 1]: entry (i, 0) is the vector's i. -/
theorem column_of_vector (v : S1024.Idx → α) (h : S1024.ShapeCasts S1024x1) (i : Fin 1024) :
    shapeCast S1024x1 v h (ix2 i (0 : Fin 1)) = v (ix1 i) := by
  refine shapeCast_apply v h (ix2 i 0) (ix1 i) ?_
  rw [Shape.rowMajor_val_one, Shape.rowMajor_val_two]
  show i.val = i.val * 1 + 0
  omega

/-- A one-entry vector [1] viewed as a 1 × 1 table. -/
theorem table_of_single (v : S1.Idx → α) (h : S1.ShapeCasts S1x1) :
    shapeCast S1x1 v h (ix2 (0 : Fin 1) (0 : Fin 1)) = v (ix1 (0 : Fin 1)) := by
  refine shapeCast_apply v h (ix2 0 0) (ix1 0) ?_
  rw [Shape.rowMajor_val_one, Shape.rowMajor_val_two]
  rfl

/-- A [1, 2] row stored as a [1, 1, 2] block: entry (0, 0, e) is the row's (0, e). -/
theorem addUnit_pair (v : S1x2.Idx → α) (h : S1x2.ShapeCasts S1x1x2) (e : Fin 2) :
    shapeCast S1x1x2 v h (ix3 (0 : Fin 1) (0 : Fin 1) e) = v (ix2 (0 : Fin 1) e) := by
  refine shapeCast_apply v h (ix3 0 0 e) (ix2 0 e) ?_
  rw [Shape.rowMajor_val_three, Shape.rowMajor_val_two]
  show (0 : ℕ) * 2 + e.val = ((0 : ℕ) * 1 + 0) * 2 + e.val
  omega

/-! ## Transposes -/

/-- The transposed points' table: entry (c, j) is the table's (j, c). -/
theorem transpose_pts (v : S1024x3.Idx → α) (h : S1024x3.Transposes [1, 0] S3x1024) (c : Fin 3) (j : Fin 1024) :
    transpose S3x1024 [1, 0] v h (ix2 c j) = v (ix2 j c) := by
  refine transpose_apply [1, 0] v h (ix2 c j) (ix2 j c) fun b => ?_
  match b with
  | ⟨0, _⟩ => rfl
  | ⟨1, _⟩ => rfl

/-- A column laid as a row: entry (0, j) is the column's (j, 0). -/
theorem row_of_column (v : S1024x1.Idx → α) (h : S1024x1.Transposes [1, 0] S1x1024) (j : Fin 1024) :
    transpose S1x1024 [1, 0] v h (ix2 (0 : Fin 1) j) = v (ix2 j (0 : Fin 1)) := by
  refine transpose_apply [1, 0] v h (ix2 0 j) (ix2 j 0) fun b => ?_
  match b with
  | ⟨0, _⟩ => rfl
  | ⟨1, _⟩ => rfl

/-! ## Spreading a column or a row over the square -/

/-- A column spread over the square: entry (i, j) is the column's (i, 0). -/
theorem spread_column (v : S1024x1.Idx → α) (h : S1024x1.Broadcasts S1024x1024) (i j : Fin 1024) :
    broadcastTo S1024x1024 v h (ix2 i j) = v (ix2 i (0 : Fin 1)) := by
  refine broadcastTo_apply v h (ix2 i j) (ix2 i 0) fun a => ?_
  match a with
  | ⟨0, _⟩ => show i.val = if (1024 : ℕ) = 1 then 0 else i.val; rw [if_neg (by decide)]
  | ⟨1, _⟩ => show (0 : ℕ) = if (1 : ℕ) = 1 then 0 else j.val; rw [if_pos rfl]

/-- A row spread over the square: entry (i, j) is the row's (0, j). -/
theorem spread_row (v : S1x1024.Idx → α) (h : S1x1024.Broadcasts S1024x1024) (i j : Fin 1024) :
    broadcastTo S1024x1024 v h (ix2 i j) = v (ix2 (0 : Fin 1) j) := by
  refine broadcastTo_apply v h (ix2 i j) (ix2 0 j) fun a => ?_
  match a with
  | ⟨0, _⟩ => show (0 : ℕ) = if (1 : ℕ) = 1 then 0 else i.val; rw [if_pos rfl]
  | ⟨1, _⟩ => show j.val = if (1024 : ℕ) = 1 then 0 else j.val; rw [if_neg (by decide)]

/-! ## Two 1 × 1 tables side by side -/

/-- The left entry of the pair is the first table's entry. -/
theorem pair_left (a b : S1x1.Idx → α) (h : Shape.Concatenates [S1x1, S1x1] S1x2 1) :
    concatenate S1x2 1 [⟨S1x1, a⟩, ⟨S1x1, b⟩] h (ix2 (0 : Fin 1) (0 : Fin 2)) = a (ix2 (0 : Fin 1) (0 : Fin 1)) := by
  refine concatenate_pair_apply_left (1 : Fin S1x2.rank) a b h (ix2 0 0) rfl (ix2 0 0) fun c => ?_
  match c with
  | ⟨0, _⟩ => rfl
  | ⟨1, _⟩ => rfl

/-- The right entry of the pair is the second table's entry. -/
theorem pair_right (a b : S1x1.Idx → α) (h : Shape.Concatenates [S1x1, S1x1] S1x2 1) :
    concatenate S1x2 1 [⟨S1x1, a⟩, ⟨S1x1, b⟩] h (ix2 (0 : Fin 1) (1 : Fin 2)) = b (ix2 (0 : Fin 1) (0 : Fin 1)) := by
  refine concatenate_pair_apply_right (1 : Fin S1x2.rank) a b h (ix2 0 1) rfl rfl (ix2 0 0) (fun c hc => ?_) rfl
  match c with
  | ⟨0, _⟩ => rfl
  | ⟨1, _⟩ => exact absurd rfl hc

/-! ## Sums

The side conditions of a reduction (its float format admits the reduction; its start word is the sum's neutral word, zero) are taken as given, in the form the body states them. -/

/-- A row's sum of the [1024, 3] table: entry i is the sum over the three coordinates. -/
theorem rowSum_pts (v : FVec Ideal S1024x3 .f32) (h : S1024x3.Reduces [1] S1024) (hφ : FKind.Formats .f32)
    (hacc : (0x00000000#32 : BitVec 32) = 0x00000000#32) (i : Fin 1024) :
    multiReduction .add [1] S1024 v 0x00000000#32 h hφ hacc (ix1 i) = ∑ c : Fin 3, v (ix2 i c) := by
  refine (Ideal.multiReduction_add_single v 0x00000000#32 h hφ hacc (ix1 i)).trans ?_
  show ∑ c : Fin 3, v (h.lift (ix1 i) c) = _
  refine Finset.sum_congr rfl fun c _ => congrArg v (funext fun a => Fin.ext ?_)
  match a with
  | ⟨0, _⟩ => rfl
  | ⟨1, _⟩ => rfl

/-- A row's sum of the square: entry i is the sum over the row's 1024 entries. -/
theorem rowSum_square (v : FVec Ideal S1024x1024 .f32) (h : S1024x1024.Reduces [1] S1024) (hφ : FKind.Formats .f32)
    (hacc : (0x00000000#32 : BitVec 32) = 0x00000000#32) (i : Fin 1024) :
    multiReduction .add [1] S1024 v 0x00000000#32 h hφ hacc (ix1 i) = ∑ j : Fin 1024, v (ix2 i j) := by
  refine (Ideal.multiReduction_add_single v 0x00000000#32 h hφ hacc (ix1 i)).trans ?_
  show ∑ j : Fin 1024, v (h.lift (ix1 i) j) = _
  refine Finset.sum_congr rfl fun j _ => congrArg v (funext fun a => Fin.ext ?_)
  match a with
  | ⟨0, _⟩ => rfl
  | ⟨1, _⟩ => rfl

/-- A column's sum: the one entry is the sum over the column's 1024 entries. -/
theorem colSum (v : FVec Ideal S1024x1 .f32) (h : S1024x1.Reduces [0] S1) (hφ : FKind.Formats .f32)
    (hacc : (0x00000000#32 : BitVec 32) = 0x00000000#32) :
    multiReduction .add [0] S1 v 0x00000000#32 h hφ hacc (ix1 (0 : Fin 1)) = ∑ i : Fin 1024, v (ix2 i (0 : Fin 1)) := by
  refine (Ideal.multiReduction_add_single v 0x00000000#32 h hφ hacc (ix1 0)).trans ?_
  show ∑ i : Fin 1024, v (h.lift (ix1 0) i) = _
  refine Finset.sum_congr rfl fun i _ => congrArg v (funext fun a => Fin.ext ?_)
  match a with
  | ⟨0, _⟩ => rfl
  | ⟨1, _⟩ => rfl

end Cert.KernelIdeal.BlockSteps

end
-- ==== Proof.LibSumIdx.lean ====
/-
  Sums over a rank-1 and a rank-3 index set as iterated sums over the coordinates: the index set of a shape
  `[n]` is `Fin n`, that of `[n0, n1, n2]` is `Fin n0 × Fin n1 × Fin n2`, so a sum over all indices of an array
  is the sum over its first coordinate of the sum over its second of the sum over its third. Stated for any
  additive commutative monoid; the rank-2 case is the library's `ValueIdx.sum_idx2`.
-/
import Idealize.ShloMosaic.Lib.ValueIdx

noncomputable section

open scoped BigOperators

namespace Cert.LibSumIdx

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx

end
-- ==== Proof.Spec.lean ====
/-
  The masked mean squared distance both programs compute, as ONE function of the two argument arrays over the
  extended reals, and the two laws that join the programs' forms of it.

  For a batch `b` of 1024 points in three coordinates, the squared distance of points `i` and `j` is written by
  the Gram expansion, |x_i|² + |x_j|² - 2·⟨x_i, x_j⟩, and floored at zero. A pair counts when its similarity entry
  exceeds the threshold. The loss is ten times the sum of the counted pairs' distances over (their number plus ε).

  One program sums batch by batch, row by row, and keeps a pair by a SELECT on the comparison bit (the distance where
  the bit is set, zero elsewhere; one where set, zero elsewhere); the other sums over the whole index set at once and
  keeps a pair by MULTIPLYING with the bit read as a number. The two agree on all of the extended reals: x · 1 = x and
  x · 0 = 0 hold there with no finiteness assumed (0 · ±∞ = 0 by convention), and a sum over the index set of a
  [32, 1024, 1024] array is the iterated sum over its coordinates because + is commutative and associative.
  The float words of 2, the threshold, ε and 10 are never evaluated: the same word stands on both sides. Only the words of
  0 and 1 are read as the numbers 0 and 1.
-/
import Idealize.ShloMosaic.PureOps.Ideal.Laws
import Idealize.ShloMosaic.Lib.ValueIdx
import Idealize.ShloMosaic.Lib.IdealHost
import proofs.«402486_j12506944766655_3_alg».proof.Proof.LibSumIdx

noncomputable section

open scoped BigOperators

namespace Cert.MaskedDist

open Idealize.ShloMosaic Idealize.ShloMosaic.ValueIdx

/-- The points: 32 batches of 1024 points in 3 coordinates. -/
abbrev SPts : Shape := ⟨3, ![32, 1024, 3]⟩
/-- The similarity map: per batch a 1024 × 1024 table. -/
abbrev SSim : Shape := ⟨3, ![32, 1024, 1024]⟩
/-- The result: a scalar. -/
abbrev SOne : Shape := ⟨0, ![]⟩

/-- |x_i|² in batch `b`. -/
def sqNorm (X : SPts.Idx → EReal) (b : Fin 32) (i : Fin 1024) : EReal :=
  ∑ c : Fin 3, X (ix3 b i c) * X (ix3 b i c)

/-- ⟨x_i, x_j⟩ in batch `b`. -/
def inner (X : SPts.Idx → EReal) (b : Fin 32) (i j : Fin 1024) : EReal :=
  ∑ c : Fin 3, X (ix3 b i c) * X (ix3 b j c)

/-- The floored squared distance of points `i` and `j` of batch `b`: max (|x_i|² + |x_j|² - 2·⟨x_i, x_j⟩) 0. -/
def sqDist (X : SPts.Idx → EReal) (b : Fin 32) (i j : Fin 1024) : EReal :=
  max ((sqNorm X b i + sqNorm X b j) - Ideal.ofBits .f32 0x40000000#32 * inner X b i j) (Ideal.ofBits .f32 0x00000000#32)

/-- The comparison bit of the pair: its similarity exceeds the threshold. -/
def near (Sm : SSim.Idx → EReal) (b : Fin 32) (i j : Fin 1024) : BitVec 1 :=
  Ideal.cmp .ogt (Sm (ix3 b i j)) (Ideal.ofBits .f32 0x3F733333#32)

/-- One batch's sum of counted distances, a row at a time, each pair kept by a select on its bit. -/
def batchDist (X : SPts.Idx → EReal) (Sm : SSim.Idx → EReal) (b : Fin 32) : EReal :=
  ∑ i : Fin 1024, ∑ j : Fin 1024, Scalar.select (near Sm b i j) (sqDist X b i j) (Ideal.ofBits .f32 0x00000000#32)

/-- One batch's number of counted pairs, a row at a time, each pair a select between one and zero. -/
def batchCount (Sm : SSim.Idx → EReal) (b : Fin 32) : EReal :=
  ∑ i : Fin 1024, ∑ j : Fin 1024,
    Scalar.select (near Sm b i j) (Ideal.ofBits .f32 0x3F800000#32) (Ideal.ofBits .f32 0x00000000#32)

/-- THE LOSS: (Σ_b batchDist) / (Σ_b batchCount + ε) · 10, each sum started from the zero word. -/
def loss (X : SPts.Idx → EReal) (Sm : SSim.Idx → EReal) : SOne.Idx → EReal := fun _ =>
  Ideal.div (Ideal.ofBits .f32 0x00000000#32 + ∑ b : Fin 32, batchDist X Sm b)
      ((Ideal.ofBits .f32 0x00000000#32 + ∑ b : Fin 32, batchCount Sm b) + Ideal.ofBits .f32 0x322BCC77#32)
    * Ideal.ofBits .f32 0x41200000#32

/-- A comparison bit read as a number: 1 if set, 0 if not. -/
def bitVal (h : BitVec 1) : EReal := ((h.toNat : ℝ) : EReal)

theorem bitVal_one : bitVal 1#1 = 1 := by
  unfold bitVal; norm_num

theorem bitVal_zero : bitVal 0#1 = 0 := by
  unfold bitVal; norm_num

/-- Keeping `d` by a select on the bit is multiplying `d` by the bit's number: x · 1 = x and x · 0 = 0 on every extended real. -/
theorem select_eq_mul (h : BitVec 1) (d : EReal) :
    Scalar.select h d (Ideal.ofBits .f32 0x00000000#32) = d * bitVal h := by
  by_cases h1 : h = 1#1
  · subst h1; rw [select_one, bitVal_one, mul_one]
  · have h0 := eq_zero_of_ne_one h1
    subst h0; rw [select_zero, bitVal_zero, mul_zero, Ideal.ofBits_zero_f32]

/-- A select between the words of one and zero is the bit's number. -/
theorem select_one_zero (h : BitVec 1) :
    Scalar.select h (Ideal.ofBits .f32 0x3F800000#32) (Ideal.ofBits .f32 0x00000000#32) = bitVal h := by
  by_cases h1 : h = 1#1
  · subst h1; rw [select_one, bitVal_one, Ideal.ofBits_one_f32]
  · have h0 := eq_zero_of_ne_one h1
    subst h0; rw [select_zero, bitVal_zero, Ideal.ofBits_zero_f32]

/-- The batch-by-batch, row-by-row sum of selected distances is the one sum over every index of the similarity map of
    distance times bit. -/
theorem sum_batchDist (X : SPts.Idx → EReal) (Sm : SSim.Idx → EReal) :
    ∑ b : Fin 32, batchDist X Sm b
      = ∑ p : SSim.Idx, sqDist X (p 0) (p 1) (p 2) * bitVal (near Sm (p 0) (p 1) (p 2)) := by
  rw [Cert.LibSumIdx.sum_idx3]
  refine Finset.sum_congr rfl fun b _ => Finset.sum_congr rfl fun i _ => Finset.sum_congr rfl fun j _ => ?_
  exact select_eq_mul _ _

/-- Likewise the number of counted pairs is the one sum of the bits. -/
theorem sum_batchCount (Sm : SSim.Idx → EReal) :
    ∑ b : Fin 32, batchCount Sm b = ∑ p : SSim.Idx, bitVal (near Sm (p 0) (p 1) (p 2)) := by
  rw [Cert.LibSumIdx.sum_idx3]
  refine Finset.sum_congr rfl fun b _ => Finset.sum_congr rfl fun i _ => Finset.sum_congr rfl fun j _ => ?_
  exact select_one_zero _

end Cert.MaskedDist

end
-- ==== Proof.BlockValue.lean ====
/-
  What one batch's body stores, entry by entry: its [1, 1, 2] result holds at (0, 0, 0) the batch's sum of counted
  distances and at (0, 0, 1) the batch's number of counted pairs, as the specification writes them.

  Reading the body's arithmetic at an index: the product of the points' table with its own transpose, into a zero
  accumulator, is the inner product of two points (a sum over the three coordinates; the change of float format
  before it is the identity on extended reals); a row's squared norm is the sum of the squares over the three
  coordinates; the square table of distances adds a column and a row of squared norms and takes twice the inner
  products away, floored at zero; the comparison with the threshold selects entry by entry; and the double
  reduction, rows first and then the column of row sums, is the iterated sum over both coordinates.
-/
import proofs.«402486_j12506944766655_3_alg».proof.Proof.Gen.KernelIdeal.Skeleton
import proofs.«402486_j12506944766655_3_alg».proof.Proof.BlockSteps
import proofs.«402486_j12506944766655_3_alg».proof.Proof.Spec

set_option maxRecDepth 16384

noncomputable section

open scoped BigOperators

namespace Cert.KernelIdeal.BlockValue

open Idealize.ShloMosaic Idealize.ShloMosaic.ValueIdx Cert.KernelIdeal Cert.KernelIdeal.Gen Cert.KernelIdeal.BlockSteps
open Cert.MaskedDist

/-! ## The product of the points' table with its transpose -/

theorem lhs_axis0 (p : S1024x1024.Idx) (q : dot_S1024x3_S3x1024_S1024x1024_1_0_0_1_n_n.contr.Idx) :
    (dot_S1024x3_S3x1024_S1024x1024_1_0_0_1_n_n.lhsIdx p q 0).val = (p 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
theorem lhs_axis1 (p : S1024x1024.Idx) (q : dot_S1024x3_S3x1024_S1024x1024_1_0_0_1_n_n.contr.Idx) :
    (dot_S1024x3_S3x1024_S1024x1024_1_0_0_1_n_n.lhsIdx p q 1).val = (q ⟨0, by decide⟩).val :=
  dot_S1024x3_S3x1024_S1024x1024_1_0_0_1_n_n.lhsIdx_val_of_single rfl p q
theorem rhs_axis0 (p : S1024x1024.Idx) (q : dot_S1024x3_S3x1024_S1024x1024_1_0_0_1_n_n.contr.Idx) :
    (dot_S1024x3_S3x1024_S1024x1024_1_0_0_1_n_n.rhsIdx p q 0).val = (q ⟨0, by decide⟩).val :=
  dot_S1024x3_S3x1024_S1024x1024_1_0_0_1_n_n.rhsIdx_val_of_single rfl p q
theorem rhs_axis1 (p : S1024x1024.Idx) (q : dot_S1024x3_S3x1024_S1024x1024_1_0_0_1_n_n.contr.Idx) :
    (dot_S1024x3_S3x1024_S1024x1024_1_0_0_1_n_n.rhsIdx p q 1).val = (p 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- Entry (i, j) of a [1024, 3] table times a [3, 1024] table, into a zero accumulator: the sum over the three
    shared coordinates of the products. -/
theorem product_apply (l : FVec Ideal S1024x3 .bf16) (r : FVec Ideal S3x1024 .bf16) (i j : Fin 1024) :
    matmul dot_S1024x3_S3x1024_S1024x1024_1_0_0_1_n_n none l r (constant S1024x1024 .f32 0x00000000#32) (ix2 i j)
      = ∑ c : Fin 3, l (ix2 i c) * r (ix2 c j) := by
  simp only [matmul]
  rw [Ideal.matmul_constant_zero_apply, ← Equiv.sum_comp (ValueIdx.contrEquiv1 dot_S1024x3_S3x1024_S1024x1024_1_0_0_1_n_n 3 rfl rfl).symm]
  refine Finset.sum_congr rfl fun k _ => ?_
  have hk := ValueIdx.contrEquiv1_symm_val dot_S1024x3_S3x1024_S1024x1024_1_0_0_1_n_n 3 rfl rfl k
  have el : dot_S1024x3_S3x1024_S1024x1024_1_0_0_1_n_n.lhsIdx (ix2 i j) ((ValueIdx.contrEquiv1 dot_S1024x3_S3x1024_S1024x1024_1_0_0_1_n_n 3 rfl rfl).symm k) = ix2 i k := funext fun a => Fin.ext (by
    match a with
    | ⟨0, _⟩ => exact lhs_axis0 _ _
    | ⟨1, _⟩ => exact (lhs_axis1 _ _).trans hk)
  have er : dot_S1024x3_S3x1024_S1024x1024_1_0_0_1_n_n.rhsIdx (ix2 i j) ((ValueIdx.contrEquiv1 dot_S1024x3_S3x1024_S1024x1024_1_0_0_1_n_n 3 rfl rfl).symm k) = ix2 k j := funext fun a => Fin.ext (by
    match a with
    | ⟨0, _⟩ => exact (rhs_axis0 _ _).trans hk
    | ⟨1, _⟩ => exact rhs_axis1 _ _)
  rw [el, er]

/-! ## The body's two entries -/

/-- Batch `b` of the points, as the [1, 1024, 3] block the body loads. -/
def ptsBlock (X : SPts.Idx → EReal) (b : Fin 32) : Vec Ideal S1x1024x3 .f32 := fun y => X (ix3 b (y 1) (y 2))
/-- Batch `b` of the similarity map, as the [1, 1024, 1024] block the body loads. -/
def simBlock (Sm : SSim.Idx → EReal) (b : Fin 32) : Vec Ideal S1x1024x1024 .f32 := fun y => Sm (ix3 b (y 1) (y 2))

/-- The body's first entry on batch `b`'s blocks: the batch's sum of counted distances. -/
theorem body_dist (X : SPts.Idx → EReal) (Sm : SSim.Idx → EReal) (b : Fin 32) :
    k0_pay1 (F := Ideal) (ptsBlock X b) (simBlock Sm b) (ix3 (0 : Fin 1) (0 : Fin 1) (0 : Fin 2)) = batchDist X Sm b := by
  unfold k0_pay1
  simp only [addUnit_pair, pair_left, table_of_single, colSum _ _ (Or.inl rfl : FKind.Formats .f32) (rfl : (0x00000000#32 : BitVec 32) = 0x00000000#32), column_of_vector,
    rowSum_square _ _ (Or.inl rfl : FKind.Formats .f32) (rfl : (0x00000000#32 : BitVec 32) = 0x00000000#32), select_apply, cmpf_apply,
    maximumf_apply, subf_apply, addf_apply, mulf_apply, broadcast_apply, spread_column, spread_row, row_of_column _ _,
    rowSum_pts _ _ (Or.inl rfl : FKind.Formats .f32) (rfl : (0x00000000#32 : BitVec 32) = 0x00000000#32),
    product_apply, truncf_apply, transpose_pts _ _, dropUnit_pts, dropUnit_sim]
  unfold batchDist sqDist sqNorm Cert.MaskedDist.inner near ptsBlock simBlock
  refine Finset.sum_congr rfl fun i _ => Finset.sum_congr rfl fun j _ => ?_
  rfl

/-- The body's second entry on batch `b`'s blocks: the batch's number of counted pairs. -/
theorem body_count (X : SPts.Idx → EReal) (Sm : SSim.Idx → EReal) (b : Fin 32) :
    k0_pay1 (F := Ideal) (ptsBlock X b) (simBlock Sm b) (ix3 (0 : Fin 1) (0 : Fin 1) (1 : Fin 2)) = batchCount Sm b := by
  unfold k0_pay1
  simp only [addUnit_pair, pair_right, table_of_single, colSum _ _ (Or.inl rfl : FKind.Formats .f32) (rfl : (0x00000000#32 : BitVec 32) = 0x00000000#32), column_of_vector,
    rowSum_square _ _ (Or.inl rfl : FKind.Formats .f32) (rfl : (0x00000000#32 : BitVec 32) = 0x00000000#32), select_apply, cmpf_apply,
    broadcast_apply, dropUnit_sim]
  unfold batchCount near simBlock
  refine Finset.sum_congr rfl fun i _ => Finset.sum_congr rfl fun j _ => ?_
  rfl

end Cert.KernelIdeal.BlockValue

end
-- ==== Proof.KernelValue.lean ====
/-
  The kernel program's run, read: its result is the specification's loss of the argument arrays.

  The call runs the body once per batch: grid point t loads batch t of the points and of the similarity map (blocks
  [1, 1024, 3] and [1, 1024, 1024] at block index (t, 0, 0)) and writes the body's [1, 1, 2] result back as block
  (t, 0, 0) of a [32, 1, 2] array of partial sums. The 32 write-back blocks tile that array, so after the call its
  entry (b, 0, e) is the body's entry e on batch b's blocks: the batch's sum of counted distances (e = 0) or its
  number of counted pairs (e = 1). The host lines after the call slice the two columns out, view each as a vector
  of 32, sum it from the zero word, add ε to the count, divide and scale by ten: the loss.
-/
import proofs.«402486_j12506944766655_3_alg».proof.Proof.Gen.KernelIdeal.Frame
import proofs.«402486_j12506944766655_3_alg».proof.Proof.BlockValue
import Idealize.ShloMosaic.Lib.Pipeline.Value
import Idealize.ShloMosaic.Lib.StableHlo.Run
import Idealize.ShloMosaic.Lib.IdealHost
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Whole

open Idealize.ShloMosaic.ValueIdx
open Cert.KernelIdeal Cert.KernelIdeal.Gen Cert.KernelIdeal.BlockValue Cert.MaskedDist

variable (m : (ℓ : Loc nD τ sig) → Buf (Elt Ideal) ℓ) (ρ : Dev nD → PrngReg)

theorem zero3 : (![0, 0, 0] : Fin 3 → Nat) = fun _ => 0 := funext fun a => by fin_cases a <;> rfl

/-- The grid has one point per batch; point t works on batch t. -/
def batchOf (t : Fin cfg0.N) : Fin 32 := t.cast N_0

/-- The three index maps send point t to block (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-! ## The input blocks -/

/-- The points' block at point t is batch t of the points. -/
theorem pts_block (c : Dev nD) (t : Fin cfg0.N) :
    (iblk m c 0 t : Vec Ideal S1x1024x3 .f32) = ptsBlock (V m c main_arg0) (batchOf t) := by
  obtain ⟨e0, e1, e2, -⟩ := index_facts t
  funext y
  unfold iblk ptsBlock
  rw [View.read_apply]
  show V m c main_arg0 _ = V m c main_arg0 _
  congr 1
  funext a
  apply Fin.ext
  have hy : (y 0).val < 1 := (y 0).isLt
  match a with
  | ⟨0, _⟩ => show win0_0.index t (0 : Fin 3) * 1 + 1 * (y 0).val = t.val; omega
  | ⟨1, _⟩ => show win0_0.index t (1 : Fin 3) * 1024 + 1 * (y 1).val = (y 1).val; omega
  | ⟨2, _⟩ => show win0_0.index t (2 : Fin 3) * 3 + 1 * (y 2).val = (y 2).val; omega

/-- The similarity block at point t is batch t of the similarity map. -/
theorem sim_block (c : Dev nD) (t : Fin cfg0.N) :
    (iblk m c 1 t : Vec Ideal S1x1024x1024 .f32) = simBlock (V m c main_arg1) (batchOf t) := by
  obtain ⟨-, -, -, e0, e1, e2, -⟩ := index_facts t
  funext y
  unfold iblk simBlock
  rw [View.read_apply]
  show V m c main_arg1 _ = V m c main_arg1 _
  congr 1
  funext a
  apply Fin.ext
  have hy : (y 0).val < 1 := (y 0).isLt
  match a with
  | ⟨0, _⟩ => show win0_1.index t (0 : Fin 3) * 1 + 1 * (y 0).val = t.val; omega
  | ⟨1, _⟩ => show win0_1.index t (1 : Fin 3) * 1024 + 1 * (y 1).val = (y 1).val; omega
  | ⟨2, _⟩ => show win0_1.index t (2 : Fin 3) * 1024 + 1 * (y 2).val = (y 2).val; omega

/-! ## The array of partial sums after the call -/

/-- The [32, 1, 2] array the call leaves, as a function of the argument arrays: entry (b, 0, e) is the body's entry e
    on batch b's blocks. -/
def partials (X : SPts.Idx → EReal) (Sm : SSim.Idx → EReal) : S32x1x2.Idx → EReal := fun p =>
  k0_pay1 (F := Ideal) (ptsBlock X (p 0)) (simBlock Sm (p 0)) (ix3 (0 : Fin 1) (0 : Fin 1) (p 2))

/-- What point t writes back is block t of `partials` of the argument arrays as the call finds them. -/
theorem flushed_eq (c : Dev nD) (t : Fin cfg0.N) :
    (dats m 0 c).flushed 2 t
      = ((cfg0.win 2).blk t).view.read (Elt Ideal) (partials (V m c main_arg0) (V m c main_arg1)) := by
  obtain ⟨-, -, -, -, -, -, e0, e1, e2⟩ := index_facts t
  show (cfg0.win 2).cut (grid0.coords t) ((dats m 0 c).after 2 t) = _
  rw [after0_2]
  unfold out0_2
  rw [View.canon_unit_zero zero3]
  simp only [View.ld_unit_zero (S := S1x1024x3) zero3, View.ld_unit_zero (S := S1x1024x1024) zero3]
  rw [pts_block, sim_block]
  funext y
  show k0_pay1 (F := Ideal) (ptsBlock (V m c main_arg0) (batchOf t)) (simBlock (V m c main_arg1) (batchOf t)) y
    = partials (V m c main_arg0) (V m c main_arg1) (((cfg0.win 2).blk t).view.emb y)
  unfold partials
  have hy0 : (y 0).val < 1 := (y 0).isLt
  have hy1 : (y 1).val < 1 := (y 1).isLt
  have hb : (((cfg0.win 2).blk t).view.emb y) 0 = batchOf t :=
    Fin.ext (by show win0_2.index t (0 : Fin 3) * 1 + 1 * (y 0).val = t.val; omega)
  have he : ix3 (0 : Fin 1) (0 : Fin 1) ((((cfg0.win 2).blk t).view.emb y) 2) = y := by
    funext a
    apply Fin.ext
    match a with
    | ⟨0, _⟩ => show (0 : ℕ) = (y 0).val; omega
    | ⟨1, _⟩ => show (0 : ℕ) = (y 1).val; omega
    | ⟨2, _⟩ => show win0_2.index t (2 : Fin 3) * 2 + 1 * (y 2).val = (y 2).val; omega
  rw [hb]
  exact (congrArg _ he).symm

/-- An index of the array is in point t's block iff each coordinate is in the block's range on its axis. -/
theorem mem_block (t : Fin cfg0.N) (p : S32x1x2.Idx) :
    p ∈ ((cfg0.win 2).blk t).view.set ↔ ∀ a : Fin 3, win0_2.index t a * S1x1x2.size a ≤ (p a).val ∧ (p a).val < win0_2.index t a * S1x1x2.size a + S1x1x2.size a := by
  show p ∈ ((View.whole main_v0).slice (win0_2.rect t)).set ↔ _
  rw [View.set_slice_whole, Rect.mem_set_unit]
  exact Iff.rfl

/-- Every index (b, 0, e) of the array is in the block point b writes back. -/
theorem covered (p : S32x1x2.Idx) :
    ∃ t : Fin cfg0.N, (cfg0.win 2).flush t = true ∧ p ∈ ((cfg0.win 2).blk t).view.set := by
  have hp0 : (p 0).val < 32 := (p 0).isLt
  have hp1 : (p 1).val < 1 := (p 1).isLt
  have hp2 : (p 2).val < 2 := (p 2).isLt
  have hN : cfg0.N = 32 := N_0
  let t : Fin cfg0.N := ⟨(p 0).val, by rw [hN]; exact hp0⟩
  obtain ⟨-, -, -, -, -, -, e0, e1, e2⟩ := index_facts t
  have e0' : win0_2.index t (0 : Fin 3) = (p 0).val := e0
  refine ⟨t, flush0_2 t, ?_⟩
  rw [mem_block]
  intro a
  match a with
  | ⟨0, _⟩ => show win0_2.index t (0 : Fin 3) * 1 ≤ (p 0).val ∧ (p 0).val < win0_2.index t (0 : Fin 3) * 1 + 1; omega
  | ⟨1, _⟩ => show win0_2.index t (1 : Fin 3) * 1 ≤ (p 1).val ∧ (p 1).val < win0_2.index t (1 : Fin 3) * 1 + 1; omega
  | ⟨2, _⟩ => show win0_2.index t (2 : Fin 3) * 2 ≤ (p 2).val ∧ (p 2).val < win0_2.index t (2 : Fin 3) * 2 + 2; omega

/-- THE ARRAY after the call is `partials` of the argument arrays. -/
theorem partials_final (c : Dev nD) :
    (dats m 0 c).arrAt 2 cfg0.N = partials (V m c main_arg0) (V m c main_arg1) :=
  (dats m 0 c).arrAt_eq_of_cover 2 (partials (V m c main_arg0) (V m c main_arg1)) (fun t _ => flushed_eq m c t) covered

/-! ## The host lines after the call -/

/-- The host lines after the call, as one function of the array of partial sums: each column sliced out, viewed as a
    vector of 32 and summed from the zero word; ε added to the count; the quotient; times ten. -/
def tailOf (out : S32x1x2.Idx → EReal) : S_.Idx → EReal :=
  mulf
    (Host.divf
      (Host.reduceAdd (F := Ideal)
        (shapeCast S32 (extractStridedSlice S32x1x1 ![0, 0, 0] out slices_S32x1x2_S32x1x1_0_0_0) shapeCasts_S32x1x1_S32)
        (constant (F := Ideal) S_ .f32 0x00000000#32) reducesTo_S32_S_d0 h_S_)
      (addf
        (Host.reduceAdd (F := Ideal)
          (shapeCast S32 (extractStridedSlice S32x1x1 ![0, 0, 1] out slices_S32x1x2_S32x1x1_0_0_1) shapeCasts_S32x1x1_S32)
          (constant (F := Ideal) S_ .f32 0x00000000#32) reducesTo_S32_S_d0 h_S_)
        (constant (F := Ideal) S_ .f32 0x322BCC77#32)))
    (constant (F := Ideal) S_ .f32 0x41200000#32)

/-- A [32, 1, 1] column viewed as a vector of 32: entry b is the column's (b, 0, 0). -/
theorem vector_of_column {α : Type} (v : S32x1x1.Idx → α) (h : S32x1x1.ShapeCasts S32) (b : Fin 32) :
    shapeCast S32 v h (ix1 b) = v (ix3 b (0 : Fin 1) (0 : Fin 1)) := by
  refine shapeCast_apply v h (ix1 b) (ix3 b 0 0) ?_
  rw [Shape.rowMajor_val_three, Shape.rowMajor_val_one]
  show (b.val * 1 + 0) * 1 + 0 = b.val
  omega

/-- The first column of the [32, 1, 2] array. -/
theorem first_column {α : Type} (out : S32x1x2.Idx → α) (h : S32x1x2.Slices ![0, 0, 0] S32x1x1) (b : Fin 32) :
    extractStridedSlice S32x1x1 ![0, 0, 0] out h (ix3 b (0 : Fin 1) (0 : Fin 1)) = out (ix3 b (0 : Fin 1) (0 : Fin 2)) := by
  refine extractStridedSlice_apply _ out h (ix3 b 0 0) (ix3 b 0 0) fun a => ?_
  match a with
  | ⟨0, _⟩ => show b.val = 0 + b.val; omega
  | ⟨1, _⟩ => rfl
  | ⟨2, _⟩ => rfl

/-- The second column of the [32, 1, 2] array. -/
theorem second_column {α : Type} (out : S32x1x2.Idx → α) (h : S32x1x2.Slices ![0, 0, 1] S32x1x1) (b : Fin 32) :
    extractStridedSlice S32x1x1 ![0, 0, 1] out h (ix3 b (0 : Fin 1) (0 : Fin 1)) = out (ix3 b (0 : Fin 1) (1 : Fin 2)) := by
  refine extractStridedSlice_apply _ out h (ix3 b 0 0) (ix3 b 0 1) fun a => ?_
  match a with
  | ⟨0, _⟩ => show b.val = 0 + b.val; omega
  | ⟨1, _⟩ => rfl
  | ⟨2, _⟩ => rfl

/-- The host lines applied to the array of partial sums give the loss. -/
theorem tail_loss (X : SPts.Idx → EReal) (Sm : SSim.Idx → EReal) : tailOf (partials X Sm) = loss X Sm := by
  funext i
  unfold tailOf loss
  have hd : ∀ b : Fin 32, partials X Sm (ix3 b (0 : Fin 1) (0 : Fin 2)) = batchDist X Sm b := fun b => body_dist X Sm b
  have hc : ∀ b : Fin 32, partials X Sm (ix3 b (0 : Fin 1) (1 : Fin 2)) = batchCount Sm b := fun b => body_count X Sm b
  simp only [mulf_apply, hostDivf_apply, addf_apply, constant_apply, hostReduceAdd_apply]
  rw [Ideal.hostReduceAdd_total reducesTo_S32_S_d0 (fun b => b.elim0), Ideal.hostReduceAdd_total reducesTo_S32_S_d0 (fun b => b.elim0),
    Cert.LibSumIdx.sum_idx1, Cert.LibSumIdx.sum_idx1]
  simp only [vector_of_column, first_column, second_column, hd, hc]

/-- The result buffer is no array of the call. -/
theorem result_rest : main_v9 ∈ Pipeline.restRefs sig (cfgs 0).spec :=
  Pipeline.mem_restRefs_of main_v9 (by decide) (by decide)

/-- What the lines after the call leave in the result buffer: the loss of the argument arrays. -/
theorem tail_value (c : Dev nD) :
    Pipeline.afterTail₀ cfgs (dats m) 0 (V0 m) [hostOps1] c main_v9
      = loss (m ((c.tc : Thread nD τ).loc main_arg0)) (m ((c.tc : Thread nD τ).loc main_arg1)) := by
  have hA : Pipeline.withArrays (cfgs 0).spec c (V0 m c) (fun w => (dats m 0 c).arrAt w (cfgs 0).N) (Proc.devRef .tc main_v0)
      = partials (V m c main_arg0) (V m c main_arg1) :=
    (Pipeline.withArrays_arr spec0 launch0.win.arr_inj c _ _ 2).trans (partials_final m c)
  unfold Pipeline.afterTail₀
  show StableHlo.after hostOps1 _ (Proc.devRef .tc main_v9) = _
  after_results
  show tailOf (Pipeline.withArrays (cfgs 0).spec c (V0 m c) (fun w => (dats m 0 c).arrAt w (cfgs 0).N) (Proc.devRef .tc main_v0)) = _
  rw [hA, V_main_arg0, V_main_arg1]
  exact tail_loss _ _

/-! ## The run -/

/-- Every weakly fair execution of the kernel program terminates with the result buffer at the loss of the argument arrays
    and the argument arrays unchanged. -/
theorem run : θ_run defs (onTc (τ := τ) (main (F := Ideal))) ⟨m, fun _ => 0, ρ⟩ fun r => ∀ c : Dev nD,
      r.2.mem ((c.tc : Thread nD τ).loc main_v9) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v9 result_rest).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.RefValue.lean ====
/-
  The reference's result is the specification's loss.

  The reference forms, over the whole [32, 1024, 1024] index set at once, the table of floored squared distances
  (a column and a row of squared norms spread over each batch's square, minus twice the batched product of the points
  with themselves), multiplies it entry by entry with the comparison bits read as numbers, and sums both that table
  and the bits' table over every index. An entry at (b, i, j) is the specification's distance of points i and j of
  batch b times the pair's bit; the only step beyond reading each operation at an index is that a sum started from
  the zero word is the sum (0 + s = s). The two total sums are then the specification's batch-by-batch sums by its
  laws `sum_batchDist` and `sum_batchCount`.
-/
import proofs.«402486_j12506944766655_3_alg».proof.Proof.Gen.ReferenceIdeal.Read
import proofs.«402486_j12506944766655_3_alg».proof.Proof.Spec

noncomputable section

open scoped BigOperators

namespace Cert.ReferenceIdeal.Whole

open Idealize.ShloMosaic Idealize.ShloMosaic.ValueIdx
open Cert.ReferenceIdeal Cert.ReferenceIdeal.Gen Cert.ReferenceIdeal.Read Cert.MaskedDist

/-- The bits' table at (b, i, j): the pair's comparison bit as a number. -/
theorem bit_entry (Sm : SSim.Idx → EReal) (p : SSim.Idx) :
    val_main_v15 (F := Ideal) Sm p = bitVal (near Sm (p 0) (p 1) (p 2)) := by
  simp only [val_main_v15_apply, val_main_v14_apply, val_main_v13_apply, val_main_cst_2_apply]
  unfold near bitVal
  exact congrArg (fun q : SSim.Idx => (((Ideal.cmp .ogt (Sm q) (Ideal.ofBits .f32 0x3F733333#32)).toNat : ℝ) : EReal)) (eq_ix3 p)

/-- The product table at (b, i, j): the floored squared distance of points i and j of batch b, times the pair's bit. -/
theorem dist_entry (X : SPts.Idx → EReal) (Sm : SSim.Idx → EReal) (p : SSim.Idx) :
    val_main_v16 (F := Ideal) X Sm p = sqDist X (p 0) (p 1) (p 2) * bitVal (near Sm (p 0) (p 1) (p 2)) := by
  rw [val_main_v16_apply, bit_entry]
  simp only [val_main_v12_apply, val_main_v11_apply, val_main_cst_1_apply, val_main_v10_apply, val_main_v9_apply,
    val_main_v8_apply, val_main_cst_0_apply, val_main_v7_apply, val_main_v6_apply, val_main_v5_apply, val_main_v4_apply,
    val_main_v3_apply, val_main_v2_apply, val_main_v1_apply, val_main_v0_apply, val_main_cst_apply]
  unfold sqDist sqNorm Cert.MaskedDist.inner
  simp only [Ideal.ofBits_def, Ideal.mulf_def, Ideal.addf_def, Ideal.subf_def, Ideal.maximumf_def]
  rw [Ideal.ofBits_zero_f32, zero_add, zero_add]
  -- the operations' composed index functions are the coordinates (b, i, c) and (b, j, c)
  have hi : ∀ k : Fin 3, idx_main_v1 (idx_main_v3 (idx_main_v5 p)) k = ix3 (p 0 : Fin 32) (p 1 : Fin 1024) k := fun k =>
    funext fun a => by match a with | ⟨0, _⟩ => rfl | ⟨1, _⟩ => rfl | ⟨2, _⟩ => rfl
  have hj : ∀ k : Fin 3, idx_main_v1 (idx_main_v4 (idx_main_v6 p)) k = ix3 (p 0 : Fin 32) (p 2 : Fin 1024) k := fun k =>
    funext fun a => by match a with | ⟨0, _⟩ => rfl | ⟨1, _⟩ => rfl | ⟨2, _⟩ => rfl
  have hl : ∀ k : Fin 3, lidx_main_v2 p k = ix3 (p 0 : Fin 32) (p 1 : Fin 1024) k := fun k =>
    funext fun a => by match a with | ⟨0, _⟩ => rfl | ⟨1, _⟩ => rfl | ⟨2, _⟩ => rfl
  have hr : ∀ k : Fin 3, ridx_main_v2 p k = ix3 (p 0 : Fin 32) (p 2 : Fin 1024) k := fun k =>
    funext fun a => by match a with | ⟨0, _⟩ => rfl | ⟨1, _⟩ => rfl | ⟨2, _⟩ => rfl
  simp only [hi, hj, hl, hr]
  rfl

/-- THE REFERENCE'S RESULT is the loss. -/
theorem result_eq (X : SPts.Idx → EReal) (Sm : SSim.Idx → EReal) : val_main_v21 (F := Ideal) X Sm = loss X Sm := by
  funext i
  have e1 : (∑ p : SSim.Idx, val_main_v16 (F := Ideal) X Sm p)
      = ∑ p : SSim.Idx, sqDist X (p 0) (p 1) (p 2) * bitVal (near Sm (p 0) (p 1) (p 2)) :=
    Finset.sum_congr rfl fun p _ => dist_entry X Sm p
  have e2 : (∑ p : SSim.Idx, val_main_v15 (F := Ideal) Sm p) = ∑ p : SSim.Idx, bitVal (near Sm (p 0) (p 1) (p 2)) :=
    Finset.sum_congr rfl fun p _ => bit_entry Sm p
  rw [val_main_v21_apply, val_main_v20_apply, val_main_v17_apply, val_main_v19_apply, val_main_v18_apply, e1, e2,
    ← sum_batchDist, ← sum_batchCount]
  rfl

end Cert.ReferenceIdeal.Whole

end
-- ==== Proof.lean ====
/-
  A masked mean of pairwise squared distances, computed batch by batch by a kernel and all at once by its reference:
  the two are equal on the extended reals.

  Both programs take 32 batches of 1024 points in three coordinates and, per batch, a 1024 × 1024 similarity table.
  A pair (i, j) of a batch counts when its similarity exceeds the threshold; its squared distance is written by the
  Gram expansion |x_i|² + |x_j|² - 2⟨x_i, x_j⟩ and floored at zero. The result is ten times the sum of the counted
  pairs' distances over their number plus ε (Proof/Spec.lean, `loss`).

  The kernel program makes one call with one grid point per batch. Each point forms the batch's table of distances
  (the inner products by one matrix product of the points' table with its transpose, after a change of float format
  that is the identity on extended reals), keeps the counted entries by a select on the comparison bit, and writes two
  numbers: the batch's sum and the batch's count (Proof/BlockValue.lean). The 32 pairs tile a [32, 1, 2] array, and
  the host lines after the call add up each column, add ε, divide and scale (Proof/KernelValue.lean). The reference
  forms the whole [32, 1024, 1024] table at once, keeps the counted entries by multiplying with the bit as a number,
  and sums over every index (Proof/RefValue.lean).

  What joins them (Proof/Spec.lean): a select between x and 0 on a bit is x times the bit's number, because
  x · 1 = x and x · 0 = 0 for every extended real, infinite ones included; and the sum over the index set of the
  table is the iterated sum over batch, row and column, addition on the extended reals being commutative and
  associative. No finiteness of the inputs is used, so the precondition is never opened. The words of 2, the
  threshold, ε and 10 are the same on both sides and are never evaluated.

  The two kernel programs' frames are the generated ones; the reference's frame is its generated run with the result
  forgotten; the idealization rewrote nothing, so its conjunct is trivial.
-/
import proofs.«402486_j12506944766655_3_alg».proof.Defs
import proofs.«402486_j12506944766655_3_alg».proof.Proof.Gen.Kernel
import proofs.«402486_j12506944766655_3_alg».proof.Proof.Gen.Kernel.Skeleton
import proofs.«402486_j12506944766655_3_alg».proof.Proof.Gen.Kernel.Launch
import proofs.«402486_j12506944766655_3_alg».proof.Proof.Gen.Kernel.Points
import proofs.«402486_j12506944766655_3_alg».proof.Proof.Gen.Kernel.Frame
import proofs.«402486_j12506944766655_3_alg».proof.Proof.Gen.KernelIdeal
import proofs.«402486_j12506944766655_3_alg».proof.Proof.Gen.KernelIdeal.Skeleton
import proofs.«402486_j12506944766655_3_alg».proof.Proof.Gen.KernelIdeal.Launch
import proofs.«402486_j12506944766655_3_alg».proof.Proof.Gen.KernelIdeal.Points
import proofs.«402486_j12506944766655_3_alg».proof.Proof.Gen.KernelIdeal.Frame
import proofs.«402486_j12506944766655_3_alg».proof.Proof.Gen.ReferenceIdeal
import proofs.«402486_j12506944766655_3_alg».proof.Proof.Gen.ReferenceIdeal.Run
import proofs.«402486_j12506944766655_3_alg».proof.Proof.Gen.ReferenceIdeal.Read
import proofs.«402486_j12506944766655_3_alg».proof.Proof.Gen.Pre_finite_inputs
import proofs.«402486_j12506944766655_3_alg».proof.Proof.KernelValue
import proofs.«402486_j12506944766655_3_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the loss of the arguments in their result buffer: the
    kernel program by its run read through the call and the host lines after it, the reference by its run read one
    operation at a time. -/
theorem algebraic : Cert.algebraic_KernelIdeal_ReferenceIdeal := by
  intro m ρ m' ρ' _ hagree
  refine ⟨fun c => Cert.MaskedDist.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Whole.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
